-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x207x64 : Shape := ⟨3, ![16, 207, 64]⟩
abbrev S16x207x1x64 : Shape := ⟨4, ![16, 207, 1, 64]⟩
abbrev S16x207x64x192 : Shape := ⟨4, ![16, 207, 64, 192]⟩
abbrev S16x207x1x192 : Shape := ⟨4, ![16, 207, 1, 192]⟩
abbrev S_ : Shape := ⟨0, ![]⟩

class Facts : Prop where
  bcast_S_S16x207x64 : S_.BroadcastsInDim S16x207x64 (![] : Fin 0 → Fin S16x207x64.rank)
  reducesTo_S16x207x64_S_d0_1_2 : S16x207x64.ReducesTo [0, 1, 2] S_
  h_S_ : 0 < S_.numel
  bcast_S_S16x207x1x64 : S_.BroadcastsInDim S16x207x1x64 (![] : Fin 0 → Fin S16x207x1x64.rank)
  reducesTo_S16x207x1x64_S_d0_1_2_3 : S16x207x1x64.ReducesTo [0, 1, 2, 3] S_
  bcast_S_S16x207x64x192 : S_.BroadcastsInDim S16x207x64x192 (![] : Fin 0 → Fin S16x207x64x192.rank)
  reducesTo_S16x207x64x192_S_d0_1_2_3 : S16x207x64x192.ReducesTo [0, 1, 2, 3] S_
  bcast_S_S16x207x1x192 : S_.BroadcastsInDim S16x207x1x192 (![] : Fin 0 → Fin S16x207x1x192.rank)
  reducesTo_S16x207x1x192_S_d0_1_2_3 : S16x207x1x192.ReducesTo [0, 1, 2, 3] S_

variable [Facts]

def fn_part1 {F : FTy → Type} [FloatOps F] (main_arg4 : FVec F S16x207x1x192 .f32) (main_v13 : IVec S_ 1) (main_v16 : IVec S16x207x64x192 1) : IVec S_ 1 :=
  let main_c_5 : IVec S_ 1 := constantI S_ 1 1#1
  let main_v17 : IVec S_ 1 := (fun x v => Host.reduce IntOp.andi x v reducesTo_S16x207x64x192_S_d0_1_2_3 h_S_) main_v16 main_c_5
  let main_v18 : IVec S_ 1 := andi main_v13 main_v17
  let main_v19 : FVec F S16x207x1x192 .f32 := Host.absf main_arg4
  let main_cst_6 : FVec F S_ .f32 := constant S_ .f32 0x7F800000#32
  let main_v20 : FVec F S16x207x1x192 .f32 := broadcastInDim S16x207x1x192 ![] bcast_S_S16x207x1x192 main_cst_6
  let main_v21 : IVec S16x207x1x192 1 := cmpf .olt main_v19 main_v20
  let main_c_7 : IVec S_ 1 := constantI S_ 1 1#1
  let main_v22 : IVec S_ 1 := (fun x v => Host.reduce IntOp.andi x v reducesTo_S16x207x1x192_S_d0_1_2_3 h_S_) main_v21 main_c_7
  let main_v23 : IVec S_ 1 := andi main_v18 main_v22
  main_v23

def fn {F : FTy → Type} [FloatOps F] (main_arg0 : FVec F S16x207x64 .f32) (main_arg1 : FVec F S16x207x1x64 .f32) (main_arg2 : FVec F S16x207x64x192 .f32) (main_arg3 : FVec F S16x207x64x192 .f32) (main_arg4 : FVec F S16x207x1x192 .f32) : IVec S_ 1 :=
  let main_v0 : FVec F S16x207x64 .f32 := Host.absf main_arg0
  let main_cst : FVec F S_ .f32 := constant S_ .f32 0x7F800000#32
  let main_v1 : FVec F S16x207x64 .f32 := broadcastInDim S16x207x64 ![] bcast_S_S16x207x64 main_cst
  let main_v2 : IVec S16x207x64 1 := cmpf .olt main_v0 main_v1
  let main_c : IVec S_ 1 := constantI S_ 1 1#1
  let main_v3 : IVec S_ 1 := (fun x v => Host.reduce IntOp.andi x v reducesTo_S16x207x64_S_d0_1_2 h_S_) main_v2 main_c
  let main_v4 : FVec F S16x207x1x64 .f32 := Host.absf main_arg1
  let main_cst_0 : FVec F S_ .f32 := constant S_ .f32 0x7F800000#32
  let main_v5 : FVec F S16x207x1x64 .f32 := broadcastInDim S16x207x1x64 ![] bcast_S_S16x207x1x64 main_cst_0
  let main_v6 : IVec S16x207x1x64 1 := cmpf .olt main_v4 main_v5
  let main_c_1 : IVec S_ 1 := constantI S_ 1 1#1
  let main_v7 : IVec S_ 1 := (fun x v => Host.reduce IntOp.andi x v reducesTo_S16x207x1x64_S_d0_1_2_3 h_S_) main_v6 main_c_1
  let main_v8 : IVec S_ 1 := andi main_v3 main_v7
  let main_v9 : FVec F S16x207x64x192 .f32 := Host.absf main_arg2
  let main_cst_2 : FVec F S_ .f32 := constant S_ .f32 0x7F800000#32
  let main_v10 : FVec F S16x207x64x192 .f32 := broadcastInDim S16x207x64x192 ![] bcast_S_S16x207x64x192 main_cst_2
  let main_v11 : IVec S16x207x64x192 1 := cmpf .olt main_v9 main_v10
  let main_c_3 : IVec S_ 1 := constantI S_ 1 1#1
  let main_v12 : IVec S_ 1 := (fun x v => Host.reduce IntOp.andi x v reducesTo_S16x207x64x192_S_d0_1_2_3 h_S_) main_v11 main_c_3
  let main_v13 : IVec S_ 1 := andi main_v8 main_v12
  let main_v14 : FVec F S16x207x64x192 .f32 := Host.absf main_arg3
  let main_cst_4 : FVec F S_ .f32 := constant S_ .f32 0x7F800000#32
  let main_v15 : FVec F S16x207x64x192 .f32 := broadcastInDim S16x207x64x192 ![] bcast_S_S16x207x64x192 main_cst_4
  let main_v16 : IVec S16x207x64x192 1 := cmpf .olt main_v14 main_v15
  fn_part1 (F := F) main_arg4 main_v13 main_v16
-- ==== Kernel.lean ====
abbrev S16x207x64 : Shape := ⟨3, ![16, 207, 64]⟩
abbrev S16x207x1x64 : Shape := ⟨4, ![16, 207, 1, 64]⟩
abbrev S16x207x64x192 : Shape := ⟨4, ![16, 207, 64, 192]⟩
abbrev S16x207x1x192 : Shape := ⟨4, ![16, 207, 1, 192]⟩
abbrev S3312x1x64 : Shape := ⟨3, ![3312, 1, 64]⟩
abbrev S3312x64x192 : Shape := ⟨3, ![3312, 64, 192]⟩
abbrev S3312x1x192 : Shape := ⟨3, ![3312, 1, 192]⟩
abbrev S138x1x64 : Shape := ⟨3, ![138, 1, 64]⟩
abbrev S138x64x192 : Shape := ⟨3, ![138, 64, 192]⟩
abbrev S138x1x192 : Shape := ⟨3, ![138, 1, 192]⟩
abbrev S138x64x64 : Shape := ⟨3, ![138, 64, 64]⟩

abbrev nBuf : Space → Nat
  | .hbm => 12
  | .vmem => 12
  | .smem => 0
  | _ => 0

abbrev bufTy : (tb : Table) → Fin (tcTables nBuf tb) → BufTy
  | .hbm, ⟨0, _⟩ => ⟨S16x207x64, .f32⟩
  | .hbm, ⟨1, _⟩ => ⟨S16x207x1x64, .f32⟩
  | .hbm, ⟨2, _⟩ => ⟨S16x207x64x192, .f32⟩
  | .hbm, ⟨3, _⟩ => ⟨S16x207x64x192, .f32⟩
  | .hbm, ⟨4, _⟩ => ⟨S16x207x1x192, .f32⟩
  | .hbm, ⟨5, _⟩ => ⟨S3312x1x64, .f32⟩
  | .hbm, ⟨6, _⟩ => ⟨S3312x1x64, .f32⟩
  | .hbm, ⟨7, _⟩ => ⟨S3312x64x192, .f32⟩
  | .hbm, ⟨8, _⟩ => ⟨S3312x64x192, .f32⟩
  | .hbm, ⟨9, _⟩ => ⟨S3312x1x192, .f32⟩
  | .hbm, ⟨10, _⟩ => ⟨S3312x1x64, .f32⟩
  | .hbm, ⟨11, _⟩ => ⟨S16x207x1x64, .f32⟩
  | .local _ .vmem, ⟨0, _⟩ => ⟨S138x1x64, .f32⟩
  | .local _ .vmem, ⟨1, _⟩ => ⟨S138x1x64, .f32⟩
  | .local _ .vmem, ⟨2, _⟩ => ⟨S138x1x64, .f32⟩
  | .local _ .vmem, ⟨3, _⟩ => ⟨S138x1x64, .f32⟩
  | .local _ .vmem, ⟨4, _⟩ => ⟨S138x64x192, .f32⟩
  | .local _ .vmem, ⟨5, _⟩ => ⟨S138x64x192, .f32⟩
  | .local _ .vmem, ⟨6, _⟩ => ⟨S138x64x192, .f32⟩
  | .local _ .vmem, ⟨7, _⟩ => ⟨S138x64x192, .f32⟩
  | .local _ .vmem, ⟨8, _⟩ => ⟨S138x1x192, .f32⟩
  | .local _ .vmem, ⟨9, _⟩ => ⟨S138x1x192, .f32⟩
  | .local _ .vmem, ⟨10, _⟩ => ⟨S138x1x64, .f32⟩
  | .local _ .vmem, ⟨11, _⟩ => ⟨S138x1x64, .f32⟩
  | _, _ => ⟨S16x207x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S138x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S138x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S138x64x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S138x64x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S138x1x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S138x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x207x64_S3312x1x64 : S16x207x64.ShapeCasts S3312x1x64
  shapeCasts_S16x207x1x64_S3312x1x64 : S16x207x1x64.ShapeCasts S3312x1x64
  shapeCasts_S16x207x64x192_S3312x64x192 : S16x207x64x192.ShapeCasts S3312x64x192
  shapeCasts_S16x207x1x192_S3312x1x192 : S16x207x1x192.ShapeCasts S3312x1x192
  inb_S138x1x64_S138x1x64_0_0_0 : ∀ a, (![0, 0, 0] : Fin 3 → Nat) a + S138x1x64.size a ≤ S138x1x64.size a
  h_S138x1x64 : 0 < S138x1x64.numel
  shapeCasts_S138x1x64_S138x1x64 : S138x1x64.ShapeCasts S138x1x64
  bitsLt_bf16_f32 : FTy.bits .bf16 < FTy.bits .f32
  inb_S138x64x192_S138x64x192_0_0_0 : ∀ a, (![0, 0, 0] : Fin 3 → Nat) a + S138x64x192.size a ≤ S138x64x192.size a
  h_S138x64x192 : 0 < S138x64x192.numel
  shapeCasts_S138x64x192_S138x64x192 : S138x64x192.ShapeCasts S138x64x192
  inb_S138x1x192_S138x1x192_0_0_0 : ∀ a, (![0, 0, 0] : Fin 3 → Nat) a + S138x1x192.size a ≤ S138x1x192.size a
  h_S138x1x192 : 0 < S138x1x192.numel
  shapeCasts_S138x1x192_S138x1x192 : S138x1x192.ShapeCasts S138x1x192
  slices_S138x1x192_o0_0_0_S138x1x64 : S138x1x192.Slices ![0, 0, 0] S138x1x64
  slices_S138x1x192_o0_0_64_S138x1x64 : S138x1x192.Slices ![0, 0, 64] S138x1x64
  slices_S138x1x192_o0_0_128_S138x1x64 : S138x1x192.Slices ![0, 0, 128] S138x1x64
  slices_S138x64x192_o0_0_0_S138x64x64 : S138x64x192.Slices ![0, 0, 0] S138x64x64
  slices_S138x64x192_o0_0_64_S138x64x64 : S138x64x192.Slices ![0, 0, 64] S138x64x64
  slices_S138x64x192_o0_0_128_S138x64x64 : S138x64x192.Slices ![0, 0, 128] S138x64x64
  shapeCasts_S3312x1x64_S16x207x1x64 : S3312x1x64.ShapeCasts S16x207x1x64
  dot_S138x1x64_S138x64x192_S138x1x192_2_1_1_2_0_0_wf : DotDims.WF S138x1x64 S138x64x192 S138x1x192 [2] [1] [1] [2] [0] [0]
  dot_S138x1x64_S138x64x64_S138x1x64_2_1_1_2_0_0_wf : DotDims.WF S138x1x64 S138x64x64 S138x1x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S138x1x64.size a ≤ S3312x1x64.size a
  hwx0_0 : ∀ i : grid0.Coords, EltTy.bits .f32 = 32 ∨ (Rect.block (s := S3312x1x64) S138x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S138x1x64.size a ≤ S3312x1x64.size a
  hwx0_1 : ∀ i : grid0.Coords, EltTy.bits .f32 = 32 ∨ (Rect.block (s := S3312x1x64) S138x1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S138x64x192.size a ≤ S3312x64x192.size a
  hwx0_2 : ∀ i : grid0.Coords, EltTy.bits .f32 = 32 ∨ (Rect.block (s := S3312x64x192) S138x64x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S138x64x192.size a ≤ S3312x64x192.size a
  hwx0_3 : ∀ i : grid0.Coords, EltTy.bits .f32 = 32 ∨ (Rect.block (s := S3312x64x192) S138x64x192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S138x1x192.size a ≤ S3312x1x192.size a
  hwx0_4 : ∀ i : grid0.Coords, EltTy.bits .f32 = 32 ∨ (Rect.block (s := S3312x1x192) S138x1x192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S138x1x64.size a ≤ S3312x1x64.size a
  hwx0_5 : ∀ i : grid0.Coords, EltTy.bits .f32 = 32 ∨ (Rect.block (s := S3312x1x64) S138x1x64.size (cc0_transform_5 i) (hinb0_5 i)).WholeWords (EltTy.packing .f32)

variable [Facts₀]

def dot_S138x1x64_S138x64x192_S138x1x192_2_1_1_2_0_0 : DotDims S138x1x64 S138x64x192 S138x1x192 where
  lhsContracting := [2]
  rhsContracting := [1]
  lhsNonContracting := [1]
  rhsNonContracting := [2]
  lhsBatch := [0]
  rhsBatch := [0]
  wf := dot_S138x1x64_S138x64x192_S138x1x192_2_1_1_2_0_0_wf
def dot_S138x1x64_S138x64x64_S138x1x64_2_1_1_2_0_0 : DotDims S138x1x64 S138x64x64 S138x1x64 where
  lhsContracting := [2]
  rhsContracting := [1]
  lhsNonContracting := [1]
  rhsNonContracting := [2]
  lhsBatch := [0]
  rhsBatch := [0]
  wf := dot_S138x1x64_S138x64x64_S138x1x64_2_1_1_2_0_0_wf

abbrev win0_0 : Pipeline.Window sig grid0 :=
  Pipeline.Window.ofSpec (Memref.whole main_v0) S138x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S138x1x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S138x64x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S138x64x192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S138x1x192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S138x1x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x207x64 : Shape := ⟨3, ![16, 207, 64]⟩
abbrev S16x207x1x64 : Shape := ⟨4, ![16, 207, 1, 64]⟩
abbrev S16x207x64x192 : Shape := ⟨4, ![16, 207, 64, 192]⟩
abbrev S16x207x1x192 : Shape := ⟨4, ![16, 207, 1, 192]⟩
abbrev S16x207x64x64 : Shape := ⟨4, ![16, 207, 64, 64]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S16x207x64, .f32⟩
  | .hbm, ⟨1, _⟩ => ⟨S16x207x1x64, .f32⟩
  | .hbm, ⟨2, _⟩ => ⟨S16x207x64x192, .f32⟩
  | .hbm, ⟨3, _⟩ => ⟨S16x207x64x192, .f32⟩
  | .hbm, ⟨4, _⟩ => ⟨S16x207x1x192, .f32⟩
  | .hbm, ⟨5, _⟩ => ⟨S16x207x1x64, .f32⟩
  | .hbm, ⟨6, _⟩ => ⟨S16x207x1x192, .f32⟩
  | .hbm, ⟨7, _⟩ => ⟨S16x207x1x64, .f32⟩
  | .hbm, ⟨8, _⟩ => ⟨S16x207x1x64, .f32⟩
  | .hbm, ⟨9, _⟩ => ⟨S16x207x1x64, .f32⟩
  | .hbm, ⟨10, _⟩ => ⟨S16x207x64x64, .f32⟩
  | .hbm, ⟨11, _⟩ => ⟨S16x207x64x64, .f32⟩
  | .hbm, ⟨12, _⟩ => ⟨S16x207x64x64, .f32⟩
  | .hbm, ⟨13, _⟩ => ⟨S16x207x1x64, .f32⟩
  | .hbm, ⟨14, _⟩ => ⟨S16x207x1x64, .f32⟩
  | .hbm, ⟨15, _⟩ => ⟨S16x207x1x64, .f32⟩
  | .hbm, ⟨16, _⟩ => ⟨S16x207x1x64, .f32⟩
  | .hbm, ⟨17, _⟩ => ⟨S16x207x1x64, .f32⟩
  | .hbm, ⟨18, _⟩ => ⟨S16x207x1x64, .f32⟩
  | .hbm, ⟨19, _⟩ => ⟨S16x207x1x64, .f32⟩
  | .hbm, ⟨20, _⟩ => ⟨S16x207x1x64, .f32⟩
  | .hbm, ⟨21, _⟩ => ⟨S_, .f32⟩
  | .hbm, ⟨22, _⟩ => ⟨S16x207x1x64, .f32⟩
  | .hbm, ⟨23, _⟩ => ⟨S16x207x1x64, .f32⟩
  | .hbm, ⟨24, _⟩ => ⟨S_, .f32⟩
  | .hbm, ⟨25, _⟩ => ⟨S16x207x1x64, .f32⟩
  | .hbm, ⟨26, _⟩ => ⟨S16x207x1x64, .f32⟩
  | .hbm, ⟨27, _⟩ => ⟨S16x207x1x64, .f32⟩
  | .hbm, ⟨28, _⟩ => ⟨S16x207x1x64, .f32⟩
  | .hbm, ⟨29, _⟩ => ⟨S16x207x1x64, .f32⟩
  | .hbm, ⟨30, _⟩ => ⟨S16x207x1x64, .f32⟩
  | .hbm, ⟨31, _⟩ => ⟨S16x207x1x64, .f32⟩
  | .hbm, ⟨32, _⟩ => ⟨S_, .f32⟩
  | .hbm, ⟨33, _⟩ => ⟨S16x207x1x64, .f32⟩
  | .hbm, ⟨34, _⟩ => ⟨S16x207x1x64, .f32⟩
  | .hbm, ⟨35, _⟩ => ⟨S_, .f32⟩
  | .hbm, ⟨36, _⟩ => ⟨S16x207x1x64, .f32⟩
  | .hbm, ⟨37, _⟩ => ⟨S16x207x1x64, .f32⟩
  | .hbm, ⟨38, _⟩ => ⟨S16x207x1x64, .f32⟩
  | .hbm, ⟨39, _⟩ => ⟨S16x207x1x64, .f32⟩
  | .hbm, ⟨40, _⟩ => ⟨S16x207x1x64, .f32⟩
  | .hbm, ⟨41, _⟩ => ⟨S16x207x1x64, .f32⟩
  | .hbm, ⟨42, _⟩ => ⟨S16x207x1x64, .f32⟩
  | .hbm, ⟨43, _⟩ => ⟨S_, .f32⟩
  | .hbm, ⟨44, _⟩ => ⟨S16x207x1x64, .f32⟩
  | .hbm, ⟨45, _⟩ => ⟨S16x207x1x64, .f32⟩
  | .hbm, ⟨46, _⟩ => ⟨S16x207x1x64, .f32⟩
  | .hbm, ⟨47, _⟩ => ⟨S16x207x1x64, .f32⟩
  | .hbm, ⟨48, _⟩ => ⟨S16x207x1x64, .f32⟩
  | _, _ => ⟨S16x207x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]

class Facts₀ : Prop where
  bcast_S16x207x64_S16x207x1x64_0_1_3 : S16x207x64.BroadcastsInDim S16x207x1x64 (![0, 1, 3] : Fin 3 → Fin S16x207x1x64.rank)
  slices_S16x207x1x192_S16x207x1x64_0_0_0_0 : S16x207x1x192.Slices ![0, 0, 0, 0] S16x207x1x64
  slices_S16x207x1x192_S16x207x1x64_0_0_0_64 : S16x207x1x192.Slices ![0, 0, 0, 64] S16x207x1x64
  slices_S16x207x1x192_S16x207x1x64_0_0_0_128 : S16x207x1x192.Slices ![0, 0, 0, 128] S16x207x1x64
  slices_S16x207x64x192_S16x207x64x64_0_0_0_0 : S16x207x64x192.Slices ![0, 0, 0, 0] S16x207x64x64
  slices_S16x207x64x192_S16x207x64x64_0_0_0_64 : S16x207x64x192.Slices ![0, 0, 0, 64] S16x207x64x64
  slices_S16x207x64x192_S16x207x64x64_0_0_0_128 : S16x207x64x192.Slices ![0, 0, 0, 128] S16x207x64x64
  bcast_S_S16x207x1x64 : S_.BroadcastsInDim S16x207x1x64 (![] : Fin 0 → Fin S16x207x1x64.rank)
  dot_S16x207x1x64_S16x207x64x192_S16x207x1x192_3_2_2_3_01_01_wf : DotDims.WF S16x207x1x64 S16x207x64x192 S16x207x1x192 [3] [2] [2] [3] [0, 1] [0, 1]
  dot_S16x207x1x64_S16x207x64x64_S16x207x1x64_3_2_2_3_01_01_wf : DotDims.WF S16x207x1x64 S16x207x64x64 S16x207x1x64 [3] [2] [2] [3] [0, 1] [0, 1]

variable [Facts₀]

def dot_S16x207x1x64_S16x207x64x192_S16x207x1x192_3_2_2_3_01_01 : DotDims S16x207x1x64 S16x207x64x192 S16x207x1x192 where
  lhsContracting := [3]
  rhsContracting := [2]
  lhsNonContracting := [2]
  rhsNonContracting := [3]
  lhsBatch := [0, 1]
  rhsBatch := [0, 1]
  wf := dot_S16x207x1x64_S16x207x64x192_S16x207x1x192_3_2_2_3_01_01_wf
def dot_S16x207x1x64_S16x207x64x64_S16x207x1x64_3_2_2_3_01_01 : DotDims S16x207x1x64 S16x207x64x64 S16x207x1x64 where
  lhsContracting := [3]
  rhsContracting := [2]
  lhsNonContracting := [2]
  rhsNonContracting := [3]
  lhsBatch := [0, 1]
  rhsBatch := [0, 1]
  wf := dot_S16x207x1x64_S16x207x64x64_S16x207x1x64_3_2_2_3_01_01_wf

class Facts : Prop extends Facts₀ where

variable [Facts]
-- ==== Proof.GruStep.lean ====
/-
  One row of the gated recurrent step, on the extended reals.

  A row carries an input vector `x` and a hidden vector `h` of length 64, two weight matrices
  `wx`, `wh` of 64 rows by 192 columns and a bias `b` of length 192. The 192 columns are three
  groups of 64: the reset gate, the update gate and the candidate. With
      pre g q = (∑ k, x k * wx k q) + (∑ k, g k * wh k q) + b q
  the reset gate is `logistic (pre h j)`, the update gate `logistic (pre h (64 + j))`, the
  candidate `tanh (pre (reset * h) (128 + j))`, and the new hidden value at `j`
      (1 - update j) * h j + update j * candidate j.
  Both programs compute exactly this expression, the additions and products in this order, so
  no law of the extended reals beyond the definitions is needed to join them; the only two
  spellings that differ are the constant one (a bit pattern on both sides) and the logistic
  function, which one side names and the other writes out as `1 / (1 + exp (-y))`.
-/
import Idealize.ShloMosaic.PureOps.Ideal
import Idealize.ShloMosaic.PureOps.IdealRules
import Idealize.ShloMosaic.PureOps.Ideal.Laws
import Idealize.ShloMosaic.Lib.ValueIdx

noncomputable section

namespace Cert.GruStep

open Idealize.ShloMosaic

/-- The single-precision word of the number one, read as an extended real. -/
abbrev one : EReal := Ideal.ofBits .f32 0x3F800000#32

/-- That word denotes `1`. -/
theorem one_eq : one = 1 := IdealRules.sign_bit.ideal_onePat .f32

/-- Column `j` of the group of 64 columns that starts at column `o`. -/
abbrev col (o : Nat) (ho : o + 64 ≤ 192) (j : Fin 64) : Fin 192 := ⟨o + j.val, by have := j.isLt; omega⟩

variable (x h : Fin 64 → EReal) (wx wh : Fin 64 → Fin 192 → EReal) (b : Fin 192 → EReal)

/-- The pre-activation of column `q` when the hidden vector fed to `wh` is `g`. -/
def pre (g : Fin 64 → EReal) (q : Fin 192) : EReal :=
  (∑ k : Fin 64, x k * wx k q) + (∑ k : Fin 64, g k * wh k q) + b q

/-- The reset gate. -/
def reset (j : Fin 64) : EReal := Ideal.logistic (pre x wx wh b h (col 0 (by decide) j))

/-- The update gate. -/
def update (j : Fin 64) : EReal := Ideal.logistic (pre x wx wh b h (col 64 (by decide) j))

/-- The candidate: the hidden vector is first scaled by the reset gate, entry by entry. -/
def candidate (j : Fin 64) : EReal :=
  Ideal.tanh (pre x wx wh b (fun k => reset x h wx wh b k * h k) (col 128 (by decide) j))

/-- The new hidden value. -/
def step (j : Fin 64) : EReal :=
  (one - update x h wx wh b j) * h j + update x h wx wh b j * candidate x h wx wh b j

/-- The logistic function written out with a division, an exponential and a negation, the two
    ones being the bit pattern, is the logistic function. -/
theorem div_one_add_exp_neg (y : EReal) : Ideal.div one (one + Ideal.exp (-y)) = Ideal.logistic y := by
  rw [one_eq]; rfl

/-- The step depends on the row's data only through their values. -/
theorem step_congr {x x' h h' : Fin 64 → EReal} {wx wx' wh wh' : Fin 64 → Fin 192 → EReal} {b b' : Fin 192 → EReal}
    (hx : ∀ k, x k = x' k) (hh : ∀ k, h k = h' k) (hwx : ∀ k q, wx k q = wx' k q)
    (hwh : ∀ k q, wh k q = wh' k q) (hb : ∀ q, b q = b' q) (j : Fin 64) :
    step x h wx wh b j = step x' h' wx' wh' b' j := by
  obtain rfl : x = x' := funext hx
  obtain rfl : h = h' := funext hh
  obtain rfl : wx = wx' := funext fun k => funext (hwx k)
  obtain rfl : wh = wh' := funext fun k => funext (hwh k)
  obtain rfl : b = b' := funext hb
  rfl

open ValueIdx

/-- The step on row `(p, n)` of the five argument arrays: `x` of shape [16, 207, 64], `h` of shape
    [16, 207, 1, 64], the weights of shape [16, 207, 64, 192], the bias of shape [16, 207, 1, 192]. -/
def stepAt (a0 : (⟨3, ![16, 207, 64]⟩ : Shape).Idx → EReal) (a1 : (⟨4, ![16, 207, 1, 64]⟩ : Shape).Idx → EReal)
    (a2 a3 : (⟨4, ![16, 207, 64, 192]⟩ : Shape).Idx → EReal) (a4 : (⟨4, ![16, 207, 1, 192]⟩ : Shape).Idx → EReal)
    (p : Fin 16) (n : Fin 207) (u : Fin 1) (j : Fin 64) : EReal :=
  step (fun k => a0 (ix3 p n k)) (fun k => a1 (ix4 p n u k)) (fun k q => a2 (ix4 p n k q))
    (fun k q => a3 (ix4 p n k q)) (fun q => a4 (ix4 p n u q)) j

/-- The whole result: at `(p, n, u, j)` the step on row `(p, n)`. -/
def result (a0 : (⟨3, ![16, 207, 64]⟩ : Shape).Idx → EReal) (a1 : (⟨4, ![16, 207, 1, 64]⟩ : Shape).Idx → EReal)
    (a2 a3 : (⟨4, ![16, 207, 64, 192]⟩ : Shape).Idx → EReal) (a4 : (⟨4, ![16, 207, 1, 192]⟩ : Shape).Idx → EReal) :
    (⟨4, ![16, 207, 1, 64]⟩ : Shape).Idx → EReal :=
  fun i => stepAt a0 a1 a2 a3 a4 ⟨(i 0).val, (i 0).isLt⟩ ⟨(i 1).val, (i 1).isLt⟩ ⟨(i 2).val, (i 2).isLt⟩ ⟨(i 3).val, (i 3).isLt⟩

/-- The step on row `r` of arrays whose two leading axes are merged into one of length `N` (the
    whole merged arrays, `N = 3312`, or one block of them, `N = 138`). -/
def rowStep {N : Nat} (xf hf : (⟨3, ![N, 1, 64]⟩ : Shape).Idx → EReal) (wxf whf : (⟨3, ![N, 64, 192]⟩ : Shape).Idx → EReal)
    (bf : (⟨3, ![N, 1, 192]⟩ : Shape).Idx → EReal) (r : Fin N) (u : Fin 1) (j : Fin 64) : EReal :=
  step (fun k => xf (ix3 r u k)) (fun k => hf (ix3 r u k)) (fun k q => wxf (ix3 r k q))
    (fun k q => whf (ix3 r k q)) (fun q => bf (ix3 r u q)) j

/-- The merged result: at `(r, u, j)` the step on row `r`. -/
def merged (xf hf : (⟨3, ![3312, 1, 64]⟩ : Shape).Idx → EReal) (wxf whf : (⟨3, ![3312, 64, 192]⟩ : Shape).Idx → EReal)
    (bf : (⟨3, ![3312, 1, 192]⟩ : Shape).Idx → EReal) : (⟨3, ![3312, 1, 64]⟩ : Shape).Idx → EReal :=
  fun i => rowStep xf hf wxf whf bf ⟨(i 0).val, (i 0).isLt⟩ ⟨(i 1).val, (i 1).isLt⟩ ⟨(i 2).val, (i 2).isLt⟩

end Cert.GruStep

end
-- ==== Proof.RefRow.lean ====
/-
  The reference, read at an index, is the gated recurrent step on that index's row.

  At `(p, n, u, j)` every batched product of the reference contracts the length-64 axis of row
  `(p, n)`: the input row against column `q` of that row's `Wx`, the hidden row (for the
  candidate, scaled entry by entry by the reset gate) against column `q` of that row's `Wh`; the
  three column groups are cut at offsets 0, 64 and 128. The gates are written by the reference
  as `1 / (1 + exp (-y))`, which is the logistic function.
-/
import proofs.«127675_j79929341379004_1_alg».proof.Proof.Gen.ReferenceIdeal.Read
import proofs.«127675_j79929341379004_1_alg».proof.Proof.GruStep

noncomputable section

namespace Cert.RefRow

open Cert.ReferenceIdeal Cert.ReferenceIdeal.Gen Cert.ReferenceIdeal.Read
open Idealize.ShloMosaic Idealize.ShloMosaic.TcCoe Idealize.ShloMosaic.ValueIdx Cert.GruStep

variable (x0 : (⟨S16x207x64, .f32⟩ : BufTy).Contents (Elt Ideal)) (x1 : (⟨S16x207x1x64, .f32⟩ : BufTy).Contents (Elt Ideal))
  (x2 x3 : (⟨S16x207x64x192, .f32⟩ : BufTy).Contents (Elt Ideal)) (x4 : (⟨S16x207x1x192, .f32⟩ : BufTy).Contents (Elt Ideal))
variable (p : Fin 16) (n : Fin 207) (u : Fin 1)

/-- Row `(p, n)`: its input vector, hidden vector, two weight matrices and bias. -/
abbrev rX : Fin 64 → EReal := fun k => x0 (ix3 p n k)
abbrev rH : Fin 64 → EReal := fun k => x1 (ix4 p n u k)
abbrev rWx : Fin 64 → Fin 192 → EReal := fun k q => x2 (ix4 p n k q)
abbrev rWh : Fin 64 → Fin 192 → EReal := fun k q => x3 (ix4 p n k q)
abbrev rB : Fin 192 → EReal := fun q => x4 (ix4 p n u q)

/-- The input row times column `q` of `Wx`. -/
theorem xw (q : Fin 192) :
    val_main_v1 (F := Ideal) x0 x2 (ix4 p n u q) = ∑ k : Fin 64, rX x0 p n k * rWx x2 p n k q := by
  rw [val_main_v1_apply]
  refine Finset.sum_congr rfl fun k _ => ?_
  rw [val_main_v0_apply]
  rw [show idx_main_v0 (lidx_main_v1 (ix4 p n u q) k) = ix3 p n k from
        funext fun a => by match a with | ⟨0, _⟩ => rfl | ⟨1, _⟩ => rfl | ⟨2, _⟩ => rfl,
      show ridx_main_v1 (ix4 p n u q) k = ix4 p n k q from
        funext fun a => by match a with | ⟨0, _⟩ => rfl | ⟨1, _⟩ => rfl | ⟨2, _⟩ => rfl | ⟨3, _⟩ => rfl]

/-- The three column groups of that product. -/
theorem xw0 (j : Fin 64) : val_main_v2 (F := Ideal) x0 x2 (ix4 p n u j)
    = ∑ k : Fin 64, rX x0 p n k * rWx x2 p n k (col 0 (by decide) j) := by
  rw [val_main_v2_apply, show idx_main_v2 (ix4 p n u j) = ix4 p n u (col 0 (by decide) j) from
    funext fun a => Fin.ext (by
      match a with
      | ⟨0, _⟩ => rfl
      | ⟨1, _⟩ => rfl
      | ⟨2, _⟩ => rfl
      | ⟨3, _⟩ => show j.val = 0 + j.val; omega)]
  exact xw x0 x2 p n u _
theorem xw1 (j : Fin 64) : val_main_v3 (F := Ideal) x0 x2 (ix4 p n u j)
    = ∑ k : Fin 64, rX x0 p n k * rWx x2 p n k (col 64 (by decide) j) := by
  rw [val_main_v3_apply, show idx_main_v3 (ix4 p n u j) = ix4 p n u (col 64 (by decide) j) from
    funext fun a => by match a with | ⟨0, _⟩ => rfl | ⟨1, _⟩ => rfl | ⟨2, _⟩ => rfl | ⟨3, _⟩ => rfl]
  exact xw x0 x2 p n u _
theorem xw2 (j : Fin 64) : val_main_v4 (F := Ideal) x0 x2 (ix4 p n u j)
    = ∑ k : Fin 64, rX x0 p n k * rWx x2 p n k (col 128 (by decide) j) := by
  rw [val_main_v4_apply, show idx_main_v4 (ix4 p n u j) = ix4 p n u (col 128 (by decide) j) from
    funext fun a => by match a with | ⟨0, _⟩ => rfl | ⟨1, _⟩ => rfl | ⟨2, _⟩ => rfl | ⟨3, _⟩ => rfl]
  exact xw x0 x2 p n u _

/-- The three column groups of the bias. -/
theorem b0 (j : Fin 64) : val_main_v8 (F := Ideal) x4 (ix4 p n u j) = rB x4 p n u (col 0 (by decide) j) := by
  rw [val_main_v8_apply]
  exact congrArg x4 (funext fun a => Fin.ext (by
    match a with
    | ⟨0, _⟩ => rfl
    | ⟨1, _⟩ => rfl
    | ⟨2, _⟩ => rfl
    | ⟨3, _⟩ => show j.val = 0 + j.val; omega))
theorem b1 (j : Fin 64) : val_main_v9 (F := Ideal) x4 (ix4 p n u j) = rB x4 p n u (col 64 (by decide) j) := by
  rw [val_main_v9_apply]
  exact congrArg x4 (funext fun a => by match a with | ⟨0, _⟩ => rfl | ⟨1, _⟩ => rfl | ⟨2, _⟩ => rfl | ⟨3, _⟩ => rfl)
theorem b2 (j : Fin 64) : val_main_v10 (F := Ideal) x4 (ix4 p n u j) = rB x4 p n u (col 128 (by decide) j) := by
  rw [val_main_v10_apply]
  exact congrArg x4 (funext fun a => by match a with | ⟨0, _⟩ => rfl | ⟨1, _⟩ => rfl | ⟨2, _⟩ => rfl | ⟨3, _⟩ => rfl)

/-- The hidden row times the reset gate's columns of `Wh`. -/
theorem hw0 (j : Fin 64) : val_main_v11 (F := Ideal) x1 x3 (ix4 p n u j)
    = ∑ k : Fin 64, rH x1 p n u k * rWh x3 p n k (col 0 (by decide) j) := by
  rw [val_main_v11_apply]
  refine Finset.sum_congr rfl fun k _ => ?_
  rw [val_main_v5_apply]
  rw [show lidx_main_v11 (ix4 p n u j) k = ix4 p n u k from
        funext fun a => by match a with | ⟨0, _⟩ => rfl | ⟨1, _⟩ => rfl | ⟨2, _⟩ => rfl | ⟨3, _⟩ => rfl,
      show idx_main_v5 (ridx_main_v11 (ix4 p n u j) k) = ix4 p n k (col 0 (by decide) j) from
        funext fun a => Fin.ext (by
          match a with
          | ⟨0, _⟩ => rfl
          | ⟨1, _⟩ => rfl
          | ⟨2, _⟩ => rfl
          | ⟨3, _⟩ => show j.val = 0 + j.val; omega)]

/-- The hidden row times the update gate's columns of `Wh`. -/
theorem hw1 (j : Fin 64) : val_main_v20 (F := Ideal) x1 x3 (ix4 p n u j)
    = ∑ k : Fin 64, rH x1 p n u k * rWh x3 p n k (col 64 (by decide) j) := by
  rw [val_main_v20_apply]
  refine Finset.sum_congr rfl fun k _ => ?_
  rw [val_main_v6_apply]
  rw [show lidx_main_v20 (ix4 p n u j) k = ix4 p n u k from
        funext fun a => by match a with | ⟨0, _⟩ => rfl | ⟨1, _⟩ => rfl | ⟨2, _⟩ => rfl | ⟨3, _⟩ => rfl,
      show idx_main_v6 (ridx_main_v20 (ix4 p n u j) k) = ix4 p n k (col 64 (by decide) j) from
        funext fun a => by match a with | ⟨0, _⟩ => rfl | ⟨1, _⟩ => rfl | ⟨2, _⟩ => rfl | ⟨3, _⟩ => rfl]

/-- The reset gate. -/
theorem reset_ref (j : Fin 64) : val_main_v19 (F := Ideal) x0 x1 x2 x3 x4 (ix4 p n u j)
    = reset (rX x0 p n) (rH x1 p n u) (rWx x2 p n) (rWh x3 p n) (rB x4 p n u) j := by
  rw [val_main_v19_apply, val_main_v18_apply, val_main_cst_0_apply, val_main_v17_apply, val_main_v16_apply,
    val_main_cst_apply, val_main_v15_apply, val_main_v14_apply, val_main_v13_apply, val_main_v12_apply,
    xw0, hw0, b0]
  exact div_one_add_exp_neg _

/-- The update gate. -/
theorem update_ref (j : Fin 64) : val_main_v28 (F := Ideal) x0 x1 x2 x3 x4 (ix4 p n u j)
    = update (rX x0 p n) (rH x1 p n u) (rWx x2 p n) (rWh x3 p n) (rB x4 p n u) j := by
  rw [val_main_v28_apply, val_main_v27_apply, val_main_cst_2_apply, val_main_v26_apply, val_main_v25_apply,
    val_main_cst_1_apply, val_main_v24_apply, val_main_v23_apply, val_main_v22_apply, val_main_v21_apply,
    xw1, hw1, b1]
  exact div_one_add_exp_neg _

/-- The reset-scaled hidden row times the candidate's columns of `Wh`. -/
theorem hw2 (j : Fin 64) : val_main_v30 (F := Ideal) x0 x1 x2 x3 x4 (ix4 p n u j)
    = ∑ k : Fin 64, (reset (rX x0 p n) (rH x1 p n u) (rWx x2 p n) (rWh x3 p n) (rB x4 p n u) k * rH x1 p n u k)
        * rWh x3 p n k (col 128 (by decide) j) := by
  rw [val_main_v30_apply]
  refine Finset.sum_congr rfl fun k _ => ?_
  rw [val_main_v7_apply, val_main_v29_apply]
  rw [show lidx_main_v30 (ix4 p n u j) k = ix4 p n u k from
        funext fun a => by match a with | ⟨0, _⟩ => rfl | ⟨1, _⟩ => rfl | ⟨2, _⟩ => rfl | ⟨3, _⟩ => rfl,
      show idx_main_v7 (ridx_main_v30 (ix4 p n u j) k) = ix4 p n k (col 128 (by decide) j) from
        funext fun a => by match a with | ⟨0, _⟩ => rfl | ⟨1, _⟩ => rfl | ⟨2, _⟩ => rfl | ⟨3, _⟩ => rfl,
      reset_ref]
  rfl

/-- The candidate. -/
theorem candidate_ref (j : Fin 64) : val_main_v33 (F := Ideal) x0 x1 x2 x3 x4 (ix4 p n u j)
    = candidate (rX x0 p n) (rH x1 p n u) (rWx x2 p n) (rWh x3 p n) (rB x4 p n u) j := by
  rw [val_main_v33_apply, val_main_v32_apply, val_main_v31_apply, xw2, hw2, b2]
  rfl

/-- The reference at `(p, n, u, j)` is the step on row `(p, n)`. -/
theorem step_ref (j : Fin 64) : val_main_v38 (F := Ideal) x0 x1 x2 x3 x4 (ix4 p n u j)
    = stepAt x0 x1 x2 x3 x4 p n u j := by
  rw [val_main_v38_apply, val_main_v37_apply, val_main_v36_apply, val_main_v35_apply, val_main_v34_apply,
    val_main_cst_3_apply, update_ref, candidate_ref]
  rfl

/-- The reference's result is the step, row by row. -/
theorem ref_eq : val_main_v38 (F := Ideal) x0 x1 x2 x3 x4 = result x0 x1 x2 x3 x4 := by
  funext i
  obtain ⟨p, n, u, j, rfl⟩ : ∃ (p : Fin 16) (n : Fin 207) (u : Fin 1) (j : Fin 64), i = ix4 p n u j :=
    ⟨i 0, i 1, i 2, i 3, eq_ix4 i⟩
  exact step_ref x0 x1 x2 x3 x4 p n u j

end Cert.RefRow

end
-- ==== Proof.BlockRow.lean ====
/-
  The kernel body's stored value, read at an index of a block, is the gated recurrent step on
  that index's row of the blocks.

  A block holds 138 rows. The body's three batched products keep the block's row (the batch
  axis) and contract the length-64 axis; the three column groups are cut at offsets 0, 64 and
  128 — out of the product with `Wx` after it is formed, out of `Wh` and the bias before they are
  used. The changes of float format are the identity on the extended reals, the shape casts are
  to the same shape, and the logistic and hyperbolic tangent are applied entry by entry.
-/
import proofs.«127675_j79929341379004_1_alg».proof.Proof.Gen.KernelIdeal.Skeleton
import proofs.«127675_j79929341379004_1_alg».proof.Proof.GruStep
import Idealize.ShloMosaic.Lib.Pipeline.Value
import Idealize.ShloMosaic.Lib.ValueIdx
import Idealize.ShloMosaic.PureOps.Ideal.Laws

noncomputable section

namespace Cert.BlockRow

open Cert.KernelIdeal Cert.KernelIdeal.Gen
open Idealize.ShloMosaic Idealize.ShloMosaic.TcCoe Idealize.ShloMosaic.ValueIdx Cert.GruStep

/-! ## The two batched products at an index -/

theorem lhsW_0 (i : S138x1x192.Idx) (q : dot_S138x1x64_S138x64x192_S138x1x192_2_1_1_2_0_0.contr.Idx) :
    (dot_S138x1x64_S138x64x192_S138x1x192_2_1_1_2_0_0.lhsIdx i q 0).val = (i 0).val := by
  unfold DotDims.lhsIdx
  rw [dif_pos (show (0 : Fin S138x1x64.rank) ∈ dot_S138x1x64_S138x64x192_S138x1x192_2_1_1_2_0_0.lhsBatch by decide)]
  rfl
theorem lhsW_1 (i : S138x1x192.Idx) (q : dot_S138x1x64_S138x64x192_S138x1x192_2_1_1_2_0_0.contr.Idx) :
    (dot_S138x1x64_S138x64x192_S138x1x192_2_1_1_2_0_0.lhsIdx i q 1).val = (i 1).val := by
  unfold DotDims.lhsIdx
  rw [dif_neg (show ¬(1 : Fin S138x1x64.rank) ∈ dot_S138x1x64_S138x64x192_S138x1x192_2_1_1_2_0_0.lhsBatch by decide), dif_pos (show (1 : Fin S138x1x64.rank) ∈ dot_S138x1x64_S138x64x192_S138x1x192_2_1_1_2_0_0.lhsNonContracting by decide)]
  rfl
theorem lhsW_2 (i : S138x1x192.Idx) (q : dot_S138x1x64_S138x64x192_S138x1x192_2_1_1_2_0_0.contr.Idx) :
    (dot_S138x1x64_S138x64x192_S138x1x192_2_1_1_2_0_0.lhsIdx i q 2).val = (q ⟨0, by decide⟩).val :=
  dot_S138x1x64_S138x64x192_S138x1x192_2_1_1_2_0_0.lhsIdx_val_of_single rfl i q
theorem rhsW_0 (i : S138x1x192.Idx) (q : dot_S138x1x64_S138x64x192_S138x1x192_2_1_1_2_0_0.contr.Idx) :
    (dot_S138x1x64_S138x64x192_S138x1x192_2_1_1_2_0_0.rhsIdx i q 0).val = (i 0).val := by
  unfold DotDims.rhsIdx
  rw [dif_pos (show (0 : Fin S138x64x192.rank) ∈ dot_S138x1x64_S138x64x192_S138x1x192_2_1_1_2_0_0.rhsBatch by decide)]
  rfl
theorem rhsW_1 (i : S138x1x192.Idx) (q : dot_S138x1x64_S138x64x192_S138x1x192_2_1_1_2_0_0.contr.Idx) :
    (dot_S138x1x64_S138x64x192_S138x1x192_2_1_1_2_0_0.rhsIdx i q 1).val = (q ⟨0, by decide⟩).val :=
  dot_S138x1x64_S138x64x192_S138x1x192_2_1_1_2_0_0.rhsIdx_val_of_single rfl i q
theorem rhsW_2 (i : S138x1x192.Idx) (q : dot_S138x1x64_S138x64x192_S138x1x192_2_1_1_2_0_0.contr.Idx) :
    (dot_S138x1x64_S138x64x192_S138x1x192_2_1_1_2_0_0.rhsIdx i q 2).val = (i 2).val := by
  unfold DotDims.rhsIdx
  rw [dif_neg (show ¬(2 : Fin S138x64x192.rank) ∈ dot_S138x1x64_S138x64x192_S138x1x192_2_1_1_2_0_0.rhsBatch by decide), dif_pos (show (2 : Fin S138x64x192.rank) ∈ dot_S138x1x64_S138x64x192_S138x1x192_2_1_1_2_0_0.rhsNonContracting by decide)]
  rfl

/-- The left operand's index for output index `i` and contraction coordinate `k`: the batch row, the one
    unit row, `k`. -/
abbrev lixW (i : S138x1x192.Idx) (k : Fin 64) : S138x1x64.Idx := fun a => match a with
  | ⟨0, _⟩ => ⟨(i 0).val, (i 0).isLt⟩
  | ⟨1, _⟩ => ⟨(i 1).val, (i 1).isLt⟩
  | ⟨2, _⟩ => ⟨k.val, k.isLt⟩
/-- The right operand's: the batch row, `k`, the output column. -/
abbrev rixW (i : S138x1x192.Idx) (k : Fin 64) : S138x64x192.Idx := fun a => match a with
  | ⟨0, _⟩ => ⟨(i 0).val, (i 0).isLt⟩
  | ⟨1, _⟩ => ⟨k.val, k.isLt⟩
  | ⟨2, _⟩ => ⟨(i 2).val, (i 2).isLt⟩

/-- The batched product into a zero accumulator, at an output index: the sum over the contracted axis of the
    products, within the output's batch row. -/
theorem mmW (l : FVec Ideal S138x1x64 .bf16) (r : FVec Ideal S138x64x192 .bf16) (i : S138x1x192.Idx) :
    matmul dot_S138x1x64_S138x64x192_S138x1x192_2_1_1_2_0_0 none l r (constant S138x1x192 .f32 0x00000000#32) i
      = ∑ k : Fin 64, l (lixW i k) * r (rixW i k) := by
  simp only [matmul]
  rw [Ideal.matmul_constant_zero_apply, ← Equiv.sum_comp (ValueIdx.contrEquiv1 dot_S138x1x64_S138x64x192_S138x1x192_2_1_1_2_0_0 64 rfl rfl).symm]
  refine Finset.sum_congr rfl fun k _ => ?_
  have hk := ValueIdx.contrEquiv1_symm_val dot_S138x1x64_S138x64x192_S138x1x192_2_1_1_2_0_0 64 rfl rfl k
  have el : dot_S138x1x64_S138x64x192_S138x1x192_2_1_1_2_0_0.lhsIdx i ((ValueIdx.contrEquiv1 dot_S138x1x64_S138x64x192_S138x1x192_2_1_1_2_0_0 64 rfl rfl).symm k) = lixW i k := funext fun a => Fin.ext (by
    match a with
    | ⟨0, _⟩ => exact lhsW_0 _ _
    | ⟨1, _⟩ => exact lhsW_1 _ _
    | ⟨2, _⟩ => exact (lhsW_2 _ _).trans hk)
  have er : dot_S138x1x64_S138x64x192_S138x1x192_2_1_1_2_0_0.rhsIdx i ((ValueIdx.contrEquiv1 dot_S138x1x64_S138x64x192_S138x1x192_2_1_1_2_0_0 64 rfl rfl).symm k) = rixW i k := funext fun a => Fin.ext (by
    match a with
    | ⟨0, _⟩ => exact rhsW_0 _ _
    | ⟨1, _⟩ => exact (rhsW_1 _ _).trans hk
    | ⟨2, _⟩ => exact rhsW_2 _ _)
  rw [el, er]

theorem lhsH_0 (i : S138x1x64.Idx) (q : dot_S138x1x64_S138x64x64_S138x1x64_2_1_1_2_0_0.contr.Idx) :
    (dot_S138x1x64_S138x64x64_S138x1x64_2_1_1_2_0_0.lhsIdx i q 0).val = (i 0).val := by
  unfold DotDims.lhsIdx
  rw [dif_pos (show (0 : Fin S138x1x64.rank) ∈ dot_S138x1x64_S138x64x64_S138x1x64_2_1_1_2_0_0.lhsBatch by decide)]
  rfl
theorem lhsH_1 (i : S138x1x64.Idx) (q : dot_S138x1x64_S138x64x64_S138x1x64_2_1_1_2_0_0.contr.Idx) :
    (dot_S138x1x64_S138x64x64_S138x1x64_2_1_1_2_0_0.lhsIdx i q 1).val = (i 1).val := by
  unfold DotDims.lhsIdx
  rw [dif_neg (show ¬(1 : Fin S138x1x64.rank) ∈ dot_S138x1x64_S138x64x64_S138x1x64_2_1_1_2_0_0.lhsBatch by decide), dif_pos (show (1 : Fin S138x1x64.rank) ∈ dot_S138x1x64_S138x64x64_S138x1x64_2_1_1_2_0_0.lhsNonContracting by decide)]
  rfl
theorem lhsH_2 (i : S138x1x64.Idx) (q : dot_S138x1x64_S138x64x64_S138x1x64_2_1_1_2_0_0.contr.Idx) :
    (dot_S138x1x64_S138x64x64_S138x1x64_2_1_1_2_0_0.lhsIdx i q 2).val = (q ⟨0, by decide⟩).val :=
  dot_S138x1x64_S138x64x64_S138x1x64_2_1_1_2_0_0.lhsIdx_val_of_single rfl i q
theorem rhsH_0 (i : S138x1x64.Idx) (q : dot_S138x1x64_S138x64x64_S138x1x64_2_1_1_2_0_0.contr.Idx) :
    (dot_S138x1x64_S138x64x64_S138x1x64_2_1_1_2_0_0.rhsIdx i q 0).val = (i 0).val := by
  unfold DotDims.rhsIdx
  rw [dif_pos (show (0 : Fin S138x64x64.rank) ∈ dot_S138x1x64_S138x64x64_S138x1x64_2_1_1_2_0_0.rhsBatch by decide)]
  rfl
theorem rhsH_1 (i : S138x1x64.Idx) (q : dot_S138x1x64_S138x64x64_S138x1x64_2_1_1_2_0_0.contr.Idx) :
    (dot_S138x1x64_S138x64x64_S138x1x64_2_1_1_2_0_0.rhsIdx i q 1).val = (q ⟨0, by decide⟩).val :=
  dot_S138x1x64_S138x64x64_S138x1x64_2_1_1_2_0_0.rhsIdx_val_of_single rfl i q
theorem rhsH_2 (i : S138x1x64.Idx) (q : dot_S138x1x64_S138x64x64_S138x1x64_2_1_1_2_0_0.contr.Idx) :
    (dot_S138x1x64_S138x64x64_S138x1x64_2_1_1_2_0_0.rhsIdx i q 2).val = (i 2).val := by
  unfold DotDims.rhsIdx
  rw [dif_neg (show ¬(2 : Fin S138x64x64.rank) ∈ dot_S138x1x64_S138x64x64_S138x1x64_2_1_1_2_0_0.rhsBatch by decide), dif_pos (show (2 : Fin S138x64x64.rank) ∈ dot_S138x1x64_S138x64x64_S138x1x64_2_1_1_2_0_0.rhsNonContracting by decide)]
  rfl

/-- The left operand's index for output index `i` and contraction coordinate `k`: the batch row, the one
    unit row, `k`. -/
abbrev lixH (i : S138x1x64.Idx) (k : Fin 64) : S138x1x64.Idx := fun a => match a with
  | ⟨0, _⟩ => ⟨(i 0).val, (i 0).isLt⟩
  | ⟨1, _⟩ => ⟨(i 1).val, (i 1).isLt⟩
  | ⟨2, _⟩ => ⟨k.val, k.isLt⟩
/-- The right operand's: the batch row, `k`, the output column. -/
abbrev rixH (i : S138x1x64.Idx) (k : Fin 64) : S138x64x64.Idx := fun a => match a with
  | ⟨0, _⟩ => ⟨(i 0).val, (i 0).isLt⟩
  | ⟨1, _⟩ => ⟨k.val, k.isLt⟩
  | ⟨2, _⟩ => ⟨(i 2).val, (i 2).isLt⟩

/-- The batched product into a zero accumulator, at an output index: the sum over the contracted axis of the
    products, within the output's batch row. -/
theorem mmH (l : FVec Ideal S138x1x64 .bf16) (r : FVec Ideal S138x64x64 .bf16) (i : S138x1x64.Idx) :
    matmul dot_S138x1x64_S138x64x64_S138x1x64_2_1_1_2_0_0 none l r (constant S138x1x64 .f32 0x00000000#32) i
      = ∑ k : Fin 64, l (lixH i k) * r (rixH i k) := by
  simp only [matmul]
  rw [Ideal.matmul_constant_zero_apply, ← Equiv.sum_comp (ValueIdx.contrEquiv1 dot_S138x1x64_S138x64x64_S138x1x64_2_1_1_2_0_0 64 rfl rfl).symm]
  refine Finset.sum_congr rfl fun k _ => ?_
  have hk := ValueIdx.contrEquiv1_symm_val dot_S138x1x64_S138x64x64_S138x1x64_2_1_1_2_0_0 64 rfl rfl k
  have el : dot_S138x1x64_S138x64x64_S138x1x64_2_1_1_2_0_0.lhsIdx i ((ValueIdx.contrEquiv1 dot_S138x1x64_S138x64x64_S138x1x64_2_1_1_2_0_0 64 rfl rfl).symm k) = lixH i k := funext fun a => Fin.ext (by
    match a with
    | ⟨0, _⟩ => exact lhsH_0 _ _
    | ⟨1, _⟩ => exact lhsH_1 _ _
    | ⟨2, _⟩ => exact (lhsH_2 _ _).trans hk)
  have er : dot_S138x1x64_S138x64x64_S138x1x64_2_1_1_2_0_0.rhsIdx i ((ValueIdx.contrEquiv1 dot_S138x1x64_S138x64x64_S138x1x64_2_1_1_2_0_0 64 rfl rfl).symm k) = rixH i k := funext fun a => Fin.ext (by
    match a with
    | ⟨0, _⟩ => exact rhsH_0 _ _
    | ⟨1, _⟩ => exact (rhsH_1 _ _).trans hk
    | ⟨2, _⟩ => exact rhsH_2 _ _)
  rw [el, er]

/-! ## Entry-by-entry operations and the column groups at an index -/

theorem logistic_apply {s : Shape} (v : FVec Ideal s .f32) (i : s.Idx) : logistic v i = Ideal.logistic (v i) := rfl
theorem tanh_apply {s : Shape} (v : FVec Ideal s .f32) (i : s.Idx) : tanh v i = Ideal.tanh (v i) := rfl

variable (p : Fin 138) (u : Fin 1)

/-- Column group `o` of a [138, 1, 192] vector, at `(p, u, j)`: the vector at column `o + j`. -/
theorem group_row {α : Type} (o : Nat) (ho : o + 64 ≤ 192) (v : S138x1x192.Idx → α)
    (h : S138x1x192.Slices ![0, 0, o] S138x1x64) (j : Fin 64) :
    extractStridedSlice S138x1x64 ![0, 0, o] v h (ix3 p u j) = v (ix3 p u (col o ho j)) :=
  extractStridedSlice_apply ![0, 0, o] v h (ix3 p u j) (ix3 p u (col o ho j)) (fun a => match a with
    | ⟨0, _⟩ => by show p.val = 0 + p.val; omega
    | ⟨1, _⟩ => by show u.val = 0 + u.val; omega
    | ⟨2, _⟩ => by show o + j.val = o + j.val; rfl)

/-- Column group `o` of a [138, 64, 192] matrix stack, at `(p, k, j)`: the stack at column `o + j`. -/
theorem group_mat {α : Type} (o : Nat) (ho : o + 64 ≤ 192) (w : S138x64x192.Idx → α)
    (h : S138x64x192.Slices ![0, 0, o] S138x64x64) (k j : Fin 64) :
    extractStridedSlice S138x64x64 ![0, 0, o] w h (ix3 p k j) = w (ix3 p k (col o ho j)) :=
  extractStridedSlice_apply ![0, 0, o] w h (ix3 p k j) (ix3 p k (col o ho j)) (fun a => match a with
    | ⟨0, _⟩ => by show p.val = 0 + p.val; omega
    | ⟨1, _⟩ => by show k.val = 0 + k.val; omega
    | ⟨2, _⟩ => by show o + j.val = o + j.val; rfl)

/-! ## The body's values on a block -/

variable (hb xb : Vec Ideal S138x1x64 .f32) (wxb whb : Vec Ideal S138x64x192 .f32) (bb : Vec Ideal S138x1x192 .f32)

/-- Row `p` of the blocks: its input vector, hidden vector, two weight matrices and bias. -/
abbrev bX : Fin 64 → EReal := fun k => xb (ix3 p u k)
abbrev bH : Fin 64 → EReal := fun k => hb (ix3 p u k)
abbrev bWx : Fin 64 → Fin 192 → EReal := fun k q => wxb (ix3 p k q)
abbrev bWh : Fin 64 → Fin 192 → EReal := fun k q => whb (ix3 p k q)
abbrev bB : Fin 192 → EReal := fun q => bb (ix3 p u q)

theorem hidden_eq : k0_pay2 (F := Ideal) hb = hb := shapeCast_self _ _
theorem hidden16_apply (i : S138x1x64.Idx) : k0_pay6 (F := Ideal) hb i = hb i := by
  unfold k0_pay6
  rw [truncf_apply, hidden_eq]
theorem wh16_apply (i : S138x64x192.Idx) : k0_pay3 (F := Ideal) whb i = whb i := by
  unfold k0_pay3
  rw [truncf_apply, shapeCast_self]
theorem bias_eq : k0_pay4 (F := Ideal) bb = bb := shapeCast_self _ _

/-- The input row times column `q` of the row's `Wx`. -/
theorem xw_blk (q : Fin 192) :
    k0_pay5 (F := Ideal) xb wxb (ix3 p u q) = ∑ k : Fin 64, bX p u xb k * bWx p wxb k q := by
  unfold k0_pay5
  rw [mmW]
  refine Finset.sum_congr rfl fun k _ => ?_
  rw [truncf_apply, truncf_apply, shapeCast_self, shapeCast_self]
  rw [show lixW (ix3 p u q) k = ix3 p u k from
        funext fun a => by match a with | ⟨0, _⟩ => rfl | ⟨1, _⟩ => rfl | ⟨2, _⟩ => rfl,
      show rixW (ix3 p u q) k = ix3 p k q from
        funext fun a => by match a with | ⟨0, _⟩ => rfl | ⟨1, _⟩ => rfl | ⟨2, _⟩ => rfl]

/-- A length-64 row vector `g` of the block times column group `o` of the row's `Wh`. -/
theorem gw_blk (o : Nat) (ho : o + 64 ≤ 192) (h : S138x64x192.Slices ![0, 0, o] S138x64x64)
    (g : FVec Ideal S138x1x64 .bf16) (j : Fin 64) :
    matmul dot_S138x1x64_S138x64x64_S138x1x64_2_1_1_2_0_0 none g (extractStridedSlice S138x64x64 ![0, 0, o] (k0_pay3 (F := Ideal) whb) h)
        (constant S138x1x64 .f32 0x00000000#32) (ix3 p u j)
      = ∑ k : Fin 64, g (ix3 p u k) * bWh p whb k (col o ho j) := by
  rw [mmH]
  refine Finset.sum_congr rfl fun k _ => ?_
  rw [show lixH (ix3 p u j) k = ix3 p u k from
        funext fun a => by match a with | ⟨0, _⟩ => rfl | ⟨1, _⟩ => rfl | ⟨2, _⟩ => rfl,
      show rixH (ix3 p u j) k = ix3 p k j from
        funext fun a => by match a with | ⟨0, _⟩ => rfl | ⟨1, _⟩ => rfl | ⟨2, _⟩ => rfl,
      group_mat p o ho _ h k j, wh16_apply]

/-- The reset gate on the block, as the body forms it. -/
abbrev resetVec : FVec Ideal S138x1x64 .f32 :=
  logistic (addf (addf
    (extractStridedSlice S138x1x64 ![0, 0, 0] (k0_pay5 (F := Ideal) xb wxb) slices_S138x1x192_o0_0_0_S138x1x64)
    (matmul dot_S138x1x64_S138x64x64_S138x1x64_2_1_1_2_0_0 none (k0_pay6 (F := Ideal) hb)
      (extractStridedSlice S138x64x64 ![0, 0, 0] (k0_pay3 (F := Ideal) whb) slices_S138x64x192_o0_0_0_S138x64x64)
      (constant S138x1x64 .f32 0x00000000#32)))
    (extractStridedSlice S138x1x64 ![0, 0, 0] (k0_pay4 (F := Ideal) bb) slices_S138x1x192_o0_0_0_S138x1x64))

theorem reset_blk (j : Fin 64) : resetVec hb xb wxb whb bb (ix3 p u j)
    = reset (bX p u xb) (bH p u hb) (bWx p wxb) (bWh p whb) (bB p u bb) j := by
  unfold resetVec
  rw [logistic_apply, addf_apply, addf_apply, group_row p u 0 (by decide), xw_blk,
    gw_blk p u whb 0 (by decide), group_row p u 0 (by decide), bias_eq]
  simp only [hidden16_apply]
  rfl

theorem update_blk (j : Fin 64) : k0_pay7 (F := Ideal) hb xb wxb whb bb (ix3 p u j)
    = update (bX p u xb) (bH p u hb) (bWx p wxb) (bWh p whb) (bB p u bb) j := by
  unfold k0_pay7
  rw [logistic_apply, addf_apply, addf_apply, group_row p u 64 (by decide), xw_blk,
    gw_blk p u whb 64 (by decide), group_row p u 64 (by decide), bias_eq]
  simp only [hidden16_apply]
  rfl

theorem candidate_blk (j : Fin 64) : k0_pay8 (F := Ideal) hb xb wxb whb bb (ix3 p u j)
    = candidate (bX p u xb) (bH p u hb) (bWx p wxb) (bWh p whb) (bB p u bb) j := by
  unfold k0_pay8
  show tanh (addf (addf
      (extractStridedSlice S138x1x64 ![0, 0, 128] (k0_pay5 (F := Ideal) xb wxb) slices_S138x1x192_o0_0_128_S138x1x64)
      (matmul dot_S138x1x64_S138x64x64_S138x1x64_2_1_1_2_0_0 none (truncf .bf16 (mulf (resetVec hb xb wxb whb bb) (k0_pay2 (F := Ideal) hb)) bitsLt_bf16_f32)
        (extractStridedSlice S138x64x64 ![0, 0, 128] (k0_pay3 (F := Ideal) whb) slices_S138x64x192_o0_0_128_S138x64x64)
        (constant S138x1x64 .f32 0x00000000#32)))
      (extractStridedSlice S138x1x64 ![0, 0, 128] (k0_pay4 (F := Ideal) bb) slices_S138x1x192_o0_0_128_S138x1x64)) (ix3 p u j) = _
  rw [tanh_apply, addf_apply, addf_apply, group_row p u 128 (by decide), xw_blk,
    gw_blk p u whb 128 (by decide), group_row p u 128 (by decide), bias_eq]
  simp only [truncf_apply, mulf_apply, reset_blk, hidden_eq]
  rfl

/-- The value the body stores, at `(p, u, j)` of the block: the step on row `p` of the blocks. -/
theorem stored_blk (j : Fin 64) :
    k0_pay1 (k0_pay2 (F := Ideal) hb) (k0_pay7 (F := Ideal) hb xb wxb whb bb) (k0_pay8 (F := Ideal) hb xb wxb whb bb)
        (k0_pay9 (F := Ideal)) (ix3 p u j)
      = rowStep xb hb wxb whb bb p u j := by
  unfold k0_pay1
  rw [addf_apply, mulf_apply, mulf_apply, subf_apply, update_blk, candidate_blk, hidden_eq]
  rfl

end Cert.BlockRow

end
-- ==== Proof.BlocksCover.lean ====
/-
  From blocks to the whole merged array.

  The grid has 24 points; at point `t` every window's block is rows `138 t … 138 t + 137` of its
  merged array (3312 = 24 · 138 rows), whole on the other two axes. So row `p` of the blocks at
  point `t` is row `138 t + p` of the merged arrays, what point `t` writes back is the step on
  those rows, and since every row `r` lies in the block of point `r / 138`, the output array ends
  holding the step on every row.
-/
import proofs.«127675_j79929341379004_1_alg».proof.Proof.Gen.KernelIdeal.Frame
import proofs.«127675_j79929341379004_1_alg».proof.Proof.BlockRow
import Idealize.ShloMosaic.Lib.Pipeline.Value

set_option maxRecDepth 16384

noncomputable section

namespace Cert.BlocksCover

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.GruStep

variable (m : (ℓ : Loc nD τ sig) → Buf (Elt Ideal) ℓ) (ρ : Dev nD → PrngReg)

theorem zero3 : (![0, 0, 0] : Fin 3 → Nat) = fun _ => 0 := funext fun a => by fin_cases a <;> rfl

/-- Every window's block index at point `t` is `(t, 0, 0)`. -/
theorem blockIndex : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The merged arrays as the region finds them. -/
abbrev fX (c : Dev nD) : Vec Ideal S3312x1x64 .f32 := V m c main_v0
abbrev fH (c : Dev nD) : Vec Ideal S3312x1x64 .f32 := V m c main_v1
abbrev fWx (c : Dev nD) : Vec Ideal S3312x64x192 .f32 := V m c main_v2
abbrev fWh (c : Dev nD) : Vec Ideal S3312x64x192 .f32 := V m c main_v3
abbrev fB (c : Dev nD) : Vec Ideal S3312x1x192 .f32 := V m c main_v4

/-- Row `p` of point `t`'s blocks is row `138 t + p` of the merged arrays. -/
abbrev row (t : Fin cfg0.N) (p : Fin 138) : Fin 3312 :=
  ⟨t.val * 138 + p.val, by have ht : t.val < 24 := lt_of_lt_of_eq t.isLt N_0; have := p.isLt; omega⟩

/-- The input block read at a row. -/
theorem blkX (c : Dev nD) (t : Fin cfg0.N) (p : Fin 138) (u : Fin 1) (k : Fin 64) :
    iblk m c 0 t (ix3 p u k) = fX m c (ix3 (row t p) u k) := by
  obtain ⟨e00, e01, e02, e10, e11, e12, e20, e21, e22, e30, e31, e32, e40, e41, e42, e50, e51, e52⟩ := blockIndex t
  show V m c main_v0 (((cfg0.win 0).blk t).view.emb (ix3 p u k)) = V m c main_v0 (ix3 (row t p) u k)
  refine congrArg _ (funext fun a => Fin.ext ?_)
  match a with
  | ⟨0, _⟩ => show win0_0.index t (0 : Fin 3) * 138 + 1 * p.val = t.val * 138 + p.val; rw [e00]; omega
  | ⟨1, _⟩ => show win0_0.index t (1 : Fin 3) * 1 + 1 * u.val = u.val; rw [e01]; omega
  | ⟨2, _⟩ => show win0_0.index t (2 : Fin 3) * 64 + 1 * k.val = k.val; rw [e02]; omega

/-- The hidden block read at a row. -/
theorem blkH (c : Dev nD) (t : Fin cfg0.N) (p : Fin 138) (u : Fin 1) (k : Fin 64) :
    iblk m c 1 t (ix3 p u k) = fH m c (ix3 (row t p) u k) := by
  obtain ⟨e00, e01, e02, e10, e11, e12, e20, e21, e22, e30, e31, e32, e40, e41, e42, e50, e51, e52⟩ := blockIndex t
  show V m c main_v1 (((cfg0.win 1).blk t).view.emb (ix3 p u k)) = V m c main_v1 (ix3 (row t p) u k)
  refine congrArg _ (funext fun a => Fin.ext ?_)
  match a with
  | ⟨0, _⟩ => show win0_1.index t (0 : Fin 3) * 138 + 1 * p.val = t.val * 138 + p.val; rw [e10]; omega
  | ⟨1, _⟩ => show win0_1.index t (1 : Fin 3) * 1 + 1 * u.val = u.val; rw [e11]; omega
  | ⟨2, _⟩ => show win0_1.index t (2 : Fin 3) * 64 + 1 * k.val = k.val; rw [e12]; omega

/-- The first weight block read at a row. -/
theorem blkWx (c : Dev nD) (t : Fin cfg0.N) (p : Fin 138) (k : Fin 64) (q : Fin 192) :
    iblk m c 2 t (ix3 p k q) = fWx m c (ix3 (row t p) k q) := by
  obtain ⟨e00, e01, e02, e10, e11, e12, e20, e21, e22, e30, e31, e32, e40, e41, e42, e50, e51, e52⟩ := blockIndex t
  show V m c main_v2 (((cfg0.win 2).blk t).view.emb (ix3 p k q)) = V m c main_v2 (ix3 (row t p) k q)
  refine congrArg _ (funext fun a => Fin.ext ?_)
  match a with
  | ⟨0, _⟩ => show win0_2.index t (0 : Fin 3) * 138 + 1 * p.val = t.val * 138 + p.val; rw [e20]; omega
  | ⟨1, _⟩ => show win0_2.index t (1 : Fin 3) * 64 + 1 * k.val = k.val; rw [e21]; omega
  | ⟨2, _⟩ => show win0_2.index t (2 : Fin 3) * 192 + 1 * q.val = q.val; rw [e22]; omega

/-- The second weight block read at a row. -/
theorem blkWh (c : Dev nD) (t : Fin cfg0.N) (p : Fin 138) (k : Fin 64) (q : Fin 192) :
    iblk m c 3 t (ix3 p k q) = fWh m c (ix3 (row t p) k q) := by
  obtain ⟨e00, e01, e02, e10, e11, e12, e20, e21, e22, e30, e31, e32, e40, e41, e42, e50, e51, e52⟩ := blockIndex t
  show V m c main_v3 (((cfg0.win 3).blk t).view.emb (ix3 p k q)) = V m c main_v3 (ix3 (row t p) k q)
  refine congrArg _ (funext fun a => Fin.ext ?_)
  match a with
  | ⟨0, _⟩ => show win0_3.index t (0 : Fin 3) * 138 + 1 * p.val = t.val * 138 + p.val; rw [e30]; omega
  | ⟨1, _⟩ => show win0_3.index t (1 : Fin 3) * 64 + 1 * k.val = k.val; rw [e31]; omega
  | ⟨2, _⟩ => show win0_3.index t (2 : Fin 3) * 192 + 1 * q.val = q.val; rw [e32]; omega

/-- The bias block read at a row. -/
theorem blkB (c : Dev nD) (t : Fin cfg0.N) (p : Fin 138) (u : Fin 1) (q : Fin 192) :
    iblk m c 4 t (ix3 p u q) = fB m c (ix3 (row t p) u q) := by
  obtain ⟨e00, e01, e02, e10, e11, e12, e20, e21, e22, e30, e31, e32, e40, e41, e42, e50, e51, e52⟩ := blockIndex t
  show V m c main_v4 (((cfg0.win 4).blk t).view.emb (ix3 p u q)) = V m c main_v4 (ix3 (row t p) u q)
  refine congrArg _ (funext fun a => Fin.ext ?_)
  match a with
  | ⟨0, _⟩ => show win0_4.index t (0 : Fin 3) * 138 + 1 * p.val = t.val * 138 + p.val; rw [e40]; omega
  | ⟨1, _⟩ => show win0_4.index t (1 : Fin 3) * 1 + 1 * u.val = u.val; rw [e41]; omega
  | ⟨2, _⟩ => show win0_4.index t (2 : Fin 3) * 192 + 1 * q.val = q.val; rw [e42]; omega

/-- What point `t` writes back is block `t` of the step on every row of the merged arrays. -/
theorem flushed_eq (c : Dev nD) (t : Fin cfg0.N) :
    (dats m 0 c).flushed 5 t
      = ((cfg0.win 5).blk t).view.read (Elt Ideal) (merged (fX m c) (fH m c) (fWx m c) (fWh m c) (fB m c)) := by
  show (cfg0.win 5).cut (grid0.coords t) ((dats m 0 c).after 5 t) = _
  rw [after0_5]
  unfold out0_5
  rw [View.canon_unit_zero zero3]
  simp only [View.ld_unit_zero (S := S138x1x64) zero3, View.ld_unit_zero (S := S138x64x192) zero3,
    View.ld_unit_zero (S := S138x1x192) zero3]
  funext y
  obtain ⟨p, u, j, rfl⟩ : ∃ (p : Fin 138) (u : Fin 1) (j : Fin 64), y = ix3 p u j := ⟨y 0, y 1, y 2, eq_ix3 y⟩
  obtain ⟨e00, e01, e02, e10, e11, e12, e20, e21, e22, e30, e31, e32, e40, e41, e42, e50, e51, e52⟩ := blockIndex t
  have he : ((cfg0.win 5).blk t).view.emb (ix3 p u j) = ix3 (row t p) u j := by
    funext a; apply Fin.ext
    match a with
    | ⟨0, _⟩ => show win0_5.index t (0 : Fin 3) * 138 + 1 * p.val = t.val * 138 + p.val; rw [e50]; omega
    | ⟨1, _⟩ => show win0_5.index t (1 : Fin 3) * 1 + 1 * u.val = u.val; rw [e51]; omega
    | ⟨2, _⟩ => show win0_5.index t (2 : Fin 3) * 64 + 1 * j.val = j.val; rw [e52]; omega
  show k0_pay1 (k0_pay2 (iblk m c 1 t)) (k0_pay7 (iblk m c 1 t) (iblk m c 0 t) (iblk m c 2 t) (iblk m c 3 t) (iblk m c 4 t))
      (k0_pay8 (iblk m c 1 t) (iblk m c 0 t) (iblk m c 2 t) (iblk m c 3 t) (iblk m c 4 t)) (k0_pay9 (F := Ideal)) (ix3 p u j)
    = merged (fX m c) (fH m c) (fWx m c) (fWh m c) (fB m c) (((cfg0.win 5).blk t).view.emb (ix3 p u j))
  rw [he]
  refine (BlockRow.stored_blk p u (iblk m c 1 t) (iblk m c 0 t) (iblk m c 2 t) (iblk m c 3 t) (iblk m c 4 t) j).trans ?_
  show rowStep (iblk m c 0 t) (iblk m c 1 t) (iblk m c 2 t) (iblk m c 3 t) (iblk m c 4 t) p u j
    = rowStep (fX m c) (fH m c) (fWx m c) (fWh m c) (fB m c) (row t p) u j
  exact step_congr (fun k => blkX m c t p u k) (fun k => blkH m c t p u k) (fun k q => blkWx m c t p k q)
    (fun k q => blkWh m c t p k q) (fun q => blkB m c t p u q) j

/-- An index of the output array is in point `t`'s block iff each coordinate is in the block's range. -/
theorem mem_blk (t : Fin cfg0.N) (i : S3312x1x64.Idx) :
    i ∈ ((cfg0.win 5).blk t).view.set ↔ ∀ a : Fin 3, win0_5.index t a * S138x1x64.size a ≤ (i a).val
      ∧ (i a).val < win0_5.index t a * S138x1x64.size a + S138x1x64.size a := by
  show i ∈ ((View.whole main_v5).slice (win0_5.rect t)).set ↔ _
  rw [View.set_slice_whole, Rect.mem_set_unit]
  exact Iff.rfl

/-- Every row is in some point's block: row `r` in that of point `r / 138`. -/
theorem cover (i : S3312x1x64.Idx) :
    ∃ t : Fin cfg0.N, (cfg0.win 5).flush t = true ∧ i ∈ ((cfg0.win 5).blk t).view.set := by
  have hi0 : (i 0).val < 3312 := (i 0).isLt
  have hi1 : (i 1).val < 1 := (i 1).isLt
  have hi2 : (i 2).val < 64 := (i 2).isLt
  obtain ⟨t, ht⟩ : ∃ t : Fin cfg0.N, t.val = (i 0).val / 138 :=
    ⟨⟨(i 0).val / 138, by rw [show cfg0.N = 24 from N_0]; omega⟩, rfl⟩
  obtain ⟨e00, e01, e02, e10, e11, e12, e20, e21, e22, e30, e31, e32, e40, e41, e42, e50, e51, e52⟩ := blockIndex t
  refine ⟨t, flush0_5 t, ?_⟩
  rw [mem_blk]
  intro a
  match a with
  | ⟨0, _⟩ => show win0_5.index t (0 : Fin 3) * 138 ≤ (i 0).val ∧ (i 0).val < win0_5.index t (0 : Fin 3) * 138 + 138; rw [e50]; omega
  | ⟨1, _⟩ => show win0_5.index t (1 : Fin 3) * 1 ≤ (i 1).val ∧ (i 1).val < win0_5.index t (1 : Fin 3) * 1 + 1; rw [e51]; omega
  | ⟨2, _⟩ => show win0_5.index t (2 : Fin 3) * 64 ≤ (i 2).val ∧ (i 2).val < win0_5.index t (2 : Fin 3) * 64 + 64; rw [e52]; omega

/-- The output array after the run: the step on every row of the merged arrays. -/
theorem final (c : Dev nD) :
    (dats m 0 c).arrAt 5 cfg0.N = merged (fX m c) (fH m c) (fWx m c) (fWh m c) (fB m c) :=
  (dats m 0 c).arrAt_eq_of_cover 5 _ (fun t _ => flushed_eq m c t) (cover)

end Cert.BlocksCover

end
-- ==== Proof.Reshapes.lean ====
/-
  The reshapes around the region, and the kernel's result as a function of its arguments.

  Before the region the five arguments are reshaped by merging their two leading axes, of
  lengths 16 and 207, into one of length 3312; after it the output is reshaped back. A reshape
  keeps the row-major position, so row `r = 207 p + n` of a merged array is row `(p, n)` of the
  argument, and the result at `(p, n, u, j)` is the merged result at `(207 p + n, u, j)`: the step
  on row `(p, n)` of the arguments.
-/
import proofs.«127675_j79929341379004_1_alg».proof.Proof.Gen.KernelIdeal.Frame
import proofs.«127675_j79929341379004_1_alg».proof.Proof.BlocksCover
import Idealize.ShloMosaic.Lib.Pipeline.Value
import Idealize.ShloMosaic.Lib.StableHlo.Run

noncomputable section

namespace Cert.Reshapes

open Cert.KernelIdeal Cert.KernelIdeal.Gen
open Idealize.ShloMosaic Idealize.ShloMosaic.TcCoe Idealize.ShloMosaic.ValueIdx Idealize.ShloMosaic.StableHlo
open Idealize.SL Idealize.SL.Sem
open Cert.GruStep Cert.BlocksCover

/-! ## Un-merging the rows -/

variable (a0 : Vec Ideal S16x207x64 .f32) (a1 : Vec Ideal S16x207x1x64 .f32) (a2 a3 : Vec Ideal S16x207x64x192 .f32)
  (a4 : Vec Ideal S16x207x1x192 .f32)

/-- Row `(p, n)` as a row of the merged arrays. -/
abbrev mrow (p : Fin 16) (n : Fin 207) : Fin 3312 := ⟨p.val * 207 + n.val, by have := p.isLt; have := n.isLt; omega⟩

/-- The merged step on the merged arguments, un-merged, is the step row by row. -/
theorem unmerge :
    shapeCast S16x207x1x64
      (merged (shapeCast S3312x1x64 a0 shapeCasts_S16x207x64_S3312x1x64)
        (shapeCast S3312x1x64 a1 shapeCasts_S16x207x1x64_S3312x1x64)
        (shapeCast S3312x64x192 a2 shapeCasts_S16x207x64x192_S3312x64x192)
        (shapeCast S3312x64x192 a3 shapeCasts_S16x207x64x192_S3312x64x192)
        (shapeCast S3312x1x192 a4 shapeCasts_S16x207x1x192_S3312x1x192))
      shapeCasts_S3312x1x64_S16x207x1x64
    = result a0 a1 a2 a3 a4 := by
  funext i
  obtain ⟨p, n, u, j, rfl⟩ : ∃ (p : Fin 16) (n : Fin 207) (u : Fin 1) (j : Fin 64), i = ix4 p n u j :=
    ⟨i 0, i 1, i 2, i 3, eq_ix4 i⟩
  have hp := p.isLt; have hn := n.isLt; have hu := u.isLt; have hj := j.isLt
  rw [shapeCast_apply _ shapeCasts_S3312x1x64_S16x207x1x64 (ix4 p n u j) (ix3 (mrow p n) u j) (by
    rw [Shape.rowMajor_val_three, Shape.rowMajor_val_four]
    show ((p.val * 207 + n.val) * 1 + u.val) * 64 + j.val = ((p.val * 207 + n.val) * 1 + u.val) * 64 + j.val
    rfl)]
  show rowStep _ _ _ _ _ (mrow p n) u j = stepAt a0 a1 a2 a3 a4 p n u j
  refine step_congr ?_ ?_ ?_ ?_ ?_ j
  · intro k
    have hk := k.isLt
    exact shapeCast_apply a0 shapeCasts_S16x207x64_S3312x1x64 (ix3 (mrow p n) u k) (ix3 p n k) (by
      rw [Shape.rowMajor_val_three, Shape.rowMajor_val_three]
      show (p.val * 207 + n.val) * 64 + k.val = ((p.val * 207 + n.val) * 1 + u.val) * 64 + k.val
      omega)
  · intro k
    have hk := k.isLt
    exact shapeCast_apply a1 shapeCasts_S16x207x1x64_S3312x1x64 (ix3 (mrow p n) u k) (ix4 p n u k) (by
      rw [Shape.rowMajor_val_four, Shape.rowMajor_val_three]
      show ((p.val * 207 + n.val) * 1 + u.val) * 64 + k.val = ((p.val * 207 + n.val) * 1 + u.val) * 64 + k.val
      rfl)
  · intro k q
    have hk := k.isLt; have hq := q.isLt
    exact shapeCast_apply a2 shapeCasts_S16x207x64x192_S3312x64x192 (ix3 (mrow p n) k q) (ix4 p n k q) (by
      rw [Shape.rowMajor_val_four, Shape.rowMajor_val_three]
      show ((p.val * 207 + n.val) * 64 + k.val) * 192 + q.val = ((p.val * 207 + n.val) * 64 + k.val) * 192 + q.val
      rfl)
  · intro k q
    have hk := k.isLt; have hq := q.isLt
    exact shapeCast_apply a3 shapeCasts_S16x207x64x192_S3312x64x192 (ix3 (mrow p n) k q) (ix4 p n k q) (by
      rw [Shape.rowMajor_val_four, Shape.rowMajor_val_three]
      show ((p.val * 207 + n.val) * 64 + k.val) * 192 + q.val = ((p.val * 207 + n.val) * 64 + k.val) * 192 + q.val
      rfl)
  · intro q
    have hq := q.isLt
    exact shapeCast_apply a4 shapeCasts_S16x207x1x192_S3312x1x192 (ix3 (mrow p n) u q) (ix4 p n u q) (by
      rw [Shape.rowMajor_val_four, Shape.rowMajor_val_three]
      show ((p.val * 207 + n.val) * 1 + u.val) * 192 + q.val = ((p.val * 207 + n.val) * 1 + u.val) * 192 + q.val
      rfl)

/-! ## The merged arrays are the reshaped arguments -/

variable (m : (ℓ : Loc nD τ sig) → Buf (Elt Ideal) ℓ) (ρ : Dev nD → PrngReg)

theorem merged_x (c : Dev nD) :
    fX m c = shapeCast S3312x1x64 (m ((c : Thread nD τ).loc main_arg0)) shapeCasts_S16x207x64_S3312x1x64 := by
  show StableHlo.after hostOps0 (fun b => m (c, b)) (Proc.devRef .tc main_v0) = _
  after_results
  rfl
theorem merged_h (c : Dev nD) :
    fH m c = shapeCast S3312x1x64 (m ((c : Thread nD τ).loc main_arg1)) shapeCasts_S16x207x1x64_S3312x1x64 := by
  show StableHlo.after hostOps0 (fun b => m (c, b)) (Proc.devRef .tc main_v1) = _
  after_results
  rfl
theorem merged_wx (c : Dev nD) :
    fWx m c = shapeCast S3312x64x192 (m ((c : Thread nD τ).loc main_arg2)) shapeCasts_S16x207x64x192_S3312x64x192 := by
  show StableHlo.after hostOps0 (fun b => m (c, b)) (Proc.devRef .tc main_v2) = _
  after_results
  rfl
theorem merged_wh (c : Dev nD) :
    fWh m c = shapeCast S3312x64x192 (m ((c : Thread nD τ).loc main_arg3)) shapeCasts_S16x207x64x192_S3312x64x192 := by
  show StableHlo.after hostOps0 (fun b => m (c, b)) (Proc.devRef .tc main_v3) = _
  after_results
  rfl
theorem merged_b (c : Dev nD) :
    fB m c = shapeCast S3312x1x192 (m ((c : Thread nD τ).loc main_arg4)) shapeCasts_S16x207x1x192_S3312x1x192 := by
  show StableHlo.after hostOps0 (fun b => m (c, b)) (Proc.devRef .tc main_v4) = _
  after_results
  rfl

/-! ## The result buffer after the reshape that follows the region -/

/-- The result buffer ends holding the step on every row of the arguments. -/
theorem result_buffer (c : Dev nD) :
    Pipeline.afterTail₀ cfgs (dats m) 0 (V0 m) [hostOps1] c main_v6
      = result (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v6) = _
  after_results
  show shapeCast S16x207x1x64 (Pipeline.withArrays (cfgs 0).spec c (V0 m c) (fun w => (dats m 0 c).arrAt w (cfgs 0).N)
      (Proc.devRef .tc main_v5)) shapeCasts_S3312x1x64_S16x207x1x64 = _
  have hw : Pipeline.withArrays (cfgs 0).spec c (V0 m c) (fun w => (dats m 0 c).arrAt w (cfgs 0).N) (Proc.devRef .tc main_v5)
      = (dats m 0 c).arrAt 5 cfg0.N := Pipeline.withArrays_arr spec0 launch0.win.arr_inj c _ _ 5
  rw [hw, final m c, merged_x m c, merged_h m c, merged_wx m c, merged_wh m c, merged_b m c]
  exact unmerge _ _ _ _ _

/-- Every weakly fair execution of the idealized kernel ends with the result buffer at the step on
    every row of the arguments, and the arguments as they were. -/
theorem kernel_value : θ_run defs (onTc (τ := τ) (main (F := Ideal))) ⟨m, fun _ => 0, ρ⟩ (fun r => ∀ c : Dev nD,
      r.2.mem ((c.tc : Thread nD τ).loc main_v6)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans (result_buffer m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Reshapes

end
-- ==== Proof.lean ====
/-
  The gated recurrent step of a kernel that streams 138 rows at a time against the plain
  batched formulation.

  Each of the 16 · 207 = 3312 rows carries an input vector `x` and a hidden vector `h` of length
  64, weight matrices `Wx`, `Wh` of 64 by 192 and a bias `b` of length 192; the new hidden vector is
      (1 - z) * h + z * tanh (x·Wx[128:] + (r * h)·Wh[128:] + b[128:]),
      r = logistic (x·Wx[:64] + h·Wh[:64] + b[:64]),  z = logistic (x·Wx[64:128] + h·Wh[64:128] + b[64:128]),
  one row at a time. The kernel merges the two leading axes, works on 24 blocks of 138 rows, casts
  its matrix operands to a shorter float format (the identity on the extended reals) and names the
  logistic function; the reference keeps the two leading axes as batch axes and writes the
  logistic function out as `1 / (1 + exp (-y))`. Both form every sum and product in the same
  order, so the two results are the same expression of the arguments, row by row
  (`GruStep.result`): the reference by reading its operations at an index (RefRow), the kernel by
  reading its stored value at an index of a block (BlockRow), the blocks tiling the merged array
  (BlocksCover) and the reshapes keeping row-major positions (Reshapes). No precondition is used.
-/
import proofs.«127675_j79929341379004_1_alg».proof.Defs
import proofs.«127675_j79929341379004_1_alg».proof.Proof.Gen.Kernel
import proofs.«127675_j79929341379004_1_alg».proof.Proof.Gen.Kernel.Skeleton
import proofs.«127675_j79929341379004_1_alg».proof.Proof.Gen.Kernel.Launch
import proofs.«127675_j79929341379004_1_alg».proof.Proof.Gen.Kernel.Points
import proofs.«127675_j79929341379004_1_alg».proof.Proof.Gen.Kernel.Frame
import proofs.«127675_j79929341379004_1_alg».proof.Proof.Gen.KernelIdeal
import proofs.«127675_j79929341379004_1_alg».proof.Proof.Gen.KernelIdeal.Skeleton
import proofs.«127675_j79929341379004_1_alg».proof.Proof.Gen.KernelIdeal.Launch
import proofs.«127675_j79929341379004_1_alg».proof.Proof.Gen.KernelIdeal.Points
import proofs.«127675_j79929341379004_1_alg».proof.Proof.Gen.KernelIdeal.Frame
import proofs.«127675_j79929341379004_1_alg».proof.Proof.Gen.ReferenceIdeal
import proofs.«127675_j79929341379004_1_alg».proof.Proof.Gen.Pre_finite_inputs
import proofs.«127675_j79929341379004_1_alg».proof.Proof.Gen.ReferenceIdeal.Run
import proofs.«127675_j79929341379004_1_alg».proof.Proof.Gen.ReferenceIdeal.Read
import proofs.«127675_j79929341379004_1_alg».proof.Proof.GruStep
import proofs.«127675_j79929341379004_1_alg».proof.Proof.RefRow
import proofs.«127675_j79929341379004_1_alg».proof.Proof.BlockRow
import proofs.«127675_j79929341379004_1_alg».proof.Proof.BlocksCover
import proofs.«127675_j79929341379004_1_alg».proof.Proof.Reshapes
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end at the step on every row of the
    arguments. -/
theorem algebraic : Cert.algebraic_KernelIdeal_ReferenceIdeal := by
  intro m ρ m' ρ' _ hagree
  refine ⟨fun c => Cert.GruStep.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.Reshapes.kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.RefRow.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
